-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x512 : Shape := ⟨2, ![4096, 512]⟩
abbrev S512 : Shape := ⟨1, ![512]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x2048x4096 .f32) (main_arg1 : FVec F S4096x512 .f32) (main_arg2 : FVec F S4096x512 .f32) (main_arg3 : FVec F S512 .f32) (main_arg4 : IVec S512 1) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x2048x4096 : Shape := ⟨3, ![8, 2048, 4096]⟩
abbrev S4096x512 : Shape := ⟨2, ![4096, 512]⟩
abbrev S512 : Shape := ⟨1, ![512]⟩
abbrev S1x512 : Shape := ⟨2, ![1, 512]⟩
abbrev S512x4096 : Shape := ⟨2, ![512, 4096]⟩
abbrev S16384x4096 : Shape := ⟨2, ![16384, 4096]⟩
abbrev S256x4096 : Shape := ⟨2, ![256, 4096]⟩
abbrev S256x512 : Shape := ⟨2, ![256, 512]⟩

abbrev nBuf : Space → Nat
  | .hbm => 16
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .i1⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S512x4096, .f32⟩
  | .hbm, ⟨11, _⟩ => ⟨S4096x512, .bf16⟩
  | .hbm, ⟨12, _⟩ => ⟨S512x4096, .bf16⟩
  | .hbm, ⟨13, _⟩ => ⟨S16384x4096, .f32⟩
  | .hbm, ⟨14, _⟩ => ⟨S16384x4096, .f32⟩
  | .hbm, ⟨15, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x512, .bf16⟩
  | .local _ .vmem, ⟨3, _⟩ => ⟨S512x4096, .bf16⟩
  | .local _ .vmem, ⟨4, _⟩ => ⟨S256x4096, .f32⟩
  | .local _ .vmem, ⟨5, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x512_S512x4096_1_0 : S4096x512.Transposes [1, 0] S512x4096
  bitsLt_bf16_f32 : FTy.bits .bf16 < FTy.bits .f32
  shapeCasts_S8x2048x4096_S16384x4096 : S8x2048x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S16384x4096_S8x2048x4096 : S16384x4096.ShapeCasts S8x2048x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .bf16 = 32 ∨ (Rect.block (s := S512x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v8) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x512 : Shape := ⟨2, ![4096, 512]⟩
abbrev S512 : Shape := ⟨1, ![512]⟩
abbrev S1x512 : Shape := ⟨2, ![1, 512]⟩
abbrev S512x4096 : Shape := ⟨2, ![512, 4096]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .i1⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S512x4096, .f32⟩
  | .hbm, ⟨11, _⟩ => ⟨S4096x4096, .f32⟩
  | .hbm, ⟨12, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x512_S512x4096_1_0 : S4096x512.Transposes [1, 0] S512x4096
  dot_S4096x512_S512x4096_S4096x4096_1_0_0_1_n_n_wf : DotDims.WF S4096x512 S512x4096 S4096x4096 [1] [0] [0] [1] [] []
  dot_S8x2048x4096_S4096x4096_S8x2048x4096_2_1_01_0_n_n_wf : DotDims.WF S8x2048x4096 S4096x4096 S8x2048x4096 [2] [1] [0, 1] [0] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.LowRankSpec.lean ====
/-
  The mathematics of the low-rank linear layer, with no program in sight.

  With the masked scale  σ k = s k · mask k  (the mask read as 0 or 1) and the scaled factor  Vσ o k = V o k · σ k,
  the layer's result at (b, t, o) is written in two ways:

    * FACTORED (two skinny products through the rank-512 bottleneck):
          ∑ k, (∑ j, x b t j · U j k) · Vσ o k
    * DENSE (the 4096 × 4096 weight  W o j = ∑ k, Vσ o k · U j k  built first):
          ∑ j, x b t j · (∑ k, Vσ o k · U j k)

  Over the extended reals multiplication does not distribute over addition at the infinities, so the two are
  equal only where every entry is a real number; there both are the double sum of the triple products
  x b t j · U j k · Vσ o k, taken in the two orders.
-/
import Idealize.ShloMosaic.PureOps.Ideal
import Idealize.ShloMosaic.Lib.ValueIdx

noncomputable section

namespace Cert.LowRank

open Idealize.ShloMosaic Idealize.ShloMosaic.ValueIdx

/-! ## Finite sums of reals inside the extended reals -/

/-- The inclusion of the reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real entries is a real entry. -/
theorem real_mul {a b : EReal} (ha : ∃ r : ℝ, a = r) (hb : ∃ r : ℝ, b = r) : ∃ r : ℝ, a * b = r := by
  obtain ⟨p, rfl⟩ := ha; obtain ⟨q, rfl⟩ := hb; exact ⟨p * q, (EReal.coe_mul p q).symm⟩

/-- THE LAW. For real entries, contracting first over `I` and then over `K` is contracting first over `K` and
    then over `I`: both are the sum over all pairs of `a i · u i k · w k`. -/
theorem sum_mul_sum_swap {I K : Type*} [Fintype I] [Fintype K] (a : I → EReal) (u : I → K → EReal) (w : K → EReal)
    (ha : ∀ i, ∃ r : ℝ, a i = r) (hu : ∀ i k, ∃ r : ℝ, u i k = r) (hw : ∀ k, ∃ r : ℝ, w k = r) :
    ∑ k, (∑ i, a i * u i k) * w k = ∑ i, a i * ∑ k, w k * u i k := by
  choose a' ha using ha
  choose u' hu using hu
  choose w' hw using hw
  simp only [ha, hu, hw, ← EReal.coe_mul, ← coe_finset_sum]
  congr 1
  simp only [Finset.sum_mul, Finset.mul_sum]
  rw [Finset.sum_comm]
  exact Finset.sum_congr rfl fun i _ => Finset.sum_congr rfl fun k _ => by ring

/-! ## The layer, index by index -/

/-- The activations, the two factors, the scale and the mask, as arrays over their literal shapes. -/
abbrev XArr := FVec Ideal ⟨3, ![8, 2048, 4096]⟩ .f32
abbrev FArr := FVec Ideal ⟨2, ![4096, 512]⟩ .f32
abbrev SArr := FVec Ideal ⟨1, ![512]⟩ .f32
abbrev MArr := IVec ⟨1, ![512]⟩ 1

/-- The masked scale `σ k = s k · mask k`, the mask bit read as the number 0 or 1. -/
def sigma (s : SArr) (mk : MArr) (k : Fin 512) : EReal :=
  s (ix1 k) * FloatOps.uitofp (F := Ideal) .f32 (mk (ix1 k))

/-- The scaled factor `Vσ o k = V o k · σ k`. -/
def vsig (v : FArr) (s : SArr) (mk : MArr) (o : Fin 4096) (k : Fin 512) : EReal :=
  v (ix2 o k) * sigma s mk k

/-- The layer FACTORED through the rank, at (b, t, o): `∑ k, (∑ j, x b t j · U j k) · Vσ o k`. -/
def factoredEntry (x : XArr) (u v : FArr) (s : SArr) (mk : MArr) (b : Fin 8) (t : Fin 2048) (o : Fin 4096) : EReal :=
  ∑ k : Fin 512, (∑ j : Fin 4096, x (ix3 b t j) * u (ix2 j k)) * vsig v s mk o k

/-- The layer with the DENSE weight built first, at (b, t, o): `∑ j, x b t j · (∑ k, Vσ o k · U j k)`. -/
def denseEntry (x : XArr) (u v : FArr) (s : SArr) (mk : MArr) (b : Fin 8) (t : Fin 2048) (o : Fin 4096) : EReal :=
  ∑ j : Fin 4096, x (ix3 b t j) * ∑ k : Fin 512, vsig v s mk o k * u (ix2 j k)

/-- The two forms as whole arrays. -/
def factored (x : XArr) (u v : FArr) (s : SArr) (mk : MArr) : XArr := fun i => factoredEntry x u v s mk (i 0) (i 1) (i 2)
def dense (x : XArr) (u v : FArr) (s : SArr) (mk : MArr) : XArr := fun i => denseEntry x u v s mk (i 0) (i 1) (i 2)

theorem factored_ix3 (x : XArr) (u v : FArr) (s : SArr) (mk : MArr) (b : Fin 8) (t : Fin 2048) (o : Fin 4096) :
    factored x u v s mk (ix3 b t o) = factoredEntry x u v s mk b t o := rfl
theorem dense_ix3 (x : XArr) (u v : FArr) (s : SArr) (mk : MArr) (b : Fin 8) (t : Fin 2048) (o : Fin 4096) :
    dense x u v s mk (ix3 b t o) = denseEntry x u v s mk b t o := rfl

/-- A mask bit read as a number is a real number (0 or 1). -/
theorem real_mask (b : BitVec 1) : ∃ r : ℝ, FloatOps.uitofp (F := Ideal) .f32 b = r := ⟨(b.toNat : ℝ), rfl⟩

/-- Where every entry of the four float arrays is real, the factored and the dense layer are one function. -/
theorem factored_eq_dense (x : XArr) (u v : FArr) (s : SArr) (mk : MArr)
    (hx : ∀ i, ∃ r : ℝ, x i = r) (hu : ∀ i, ∃ r : ℝ, u i = r) (hv : ∀ i, ∃ r : ℝ, v i = r) (hs : ∀ i, ∃ r : ℝ, s i = r) :
    factored x u v s mk = dense x u v s mk := by
  funext i
  exact sum_mul_sum_swap (fun j : Fin 4096 => x (ix3 (i 0) (i 1) j)) (fun j k => u (ix2 j k)) (fun k => vsig v s mk (i 2) k)
    (fun j => hx _) (fun j k => hu _) (fun k => real_mul (hv _) (real_mul (hs _) (real_mask _)))

end Cert.LowRank

end
-- ==== Proof.FiniteInputs.lean ====
/-
  What the precondition says: each of the four float arrays holds real numbers only.

  The printed predicate is, array by array, "every |entry| is below +inf", the four conjoined. Read back: the
  conjunction splits, each universal quantifier gives the comparison at one index, and an extended real whose
  absolute value is below the top element is neither infinity, hence a real number.
-/
import proofs.«150062_j23587960389934_1_alg».proof.Pre_finite_inputs
import Idealize.ShloMosaic.Lib.ReduceAll
import Idealize.ShloMosaic.PureOps.Ideal

noncomputable section

namespace Cert.LowRank.Finite

open Idealize.ShloMosaic Cert.Pre_finite_inputs

/-- The rank-0 shape has one index. -/
instance : Subsingleton S_.Idx := ⟨fun a b => funext fun d => d.elim0⟩

/-- The pattern the predicate compares against is the top element. -/
theorem ofBits_inf : Ideal.ofBits .f32 0x7F800000#32 = (⊤ : EReal) := by simp [Ideal.ofBits, Ideal.ieee]

/-- An extended real whose absolute value is strictly below the top element is a real number. -/
theorem real_of_abs_lt_top (x : EReal) (h : Ideal.cmp .olt (max x (-x)) (Ideal.ofBits .f32 0x7F800000#32) = 1#1) :
    ∃ r : ℝ, x = r := by
  rw [ofBits_inf] at h
  induction x using EReal.rec with
  | bot => simp [Ideal.cmp] at h
  | top => simp [Ideal.cmp] at h
  | coe r => exact ⟨r, rfl⟩

variable [Facts]

/-- The precondition, read: every entry of `x`, `U`, `V` and `s` is a real number. -/
theorem real_of_pre (x : FVec Ideal S8x2048x4096 .f32) (u v : FVec Ideal S4096x512 .f32) (s : FVec Ideal S512 .f32)
    (mk : IVec S512 1) (h : fn (F := Ideal) x u v s mk = fun _ => 1#1) :
    (∀ i, ∃ r : ℝ, x i = r) ∧ (∀ i, ∃ r : ℝ, u i = r) ∧ (∀ i, ∃ r : ℝ, v i = r) ∧ (∀ i, ∃ r : ℝ, s i = r) := by
  have h0 := congrFun h (fun a => a.elim0)
  dsimp only [fn, fn_part1] at h0
  obtain ⟨h123, hs⟩ := IntOp.andi_eq_one.1 h0
  obtain ⟨h12, hv⟩ := IntOp.andi_eq_one.1 h123
  obtain ⟨hx, hu⟩ := IntOp.andi_eq_one.1 h12
  exact ⟨fun i => real_of_abs_lt_top (x i) (Host.reduce_andi_all _ _ _ _ _ hx i),
    fun i => real_of_abs_lt_top (u i) (Host.reduce_andi_all _ _ _ _ _ hu i),
    fun i => real_of_abs_lt_top (v i) (Host.reduce_andi_all _ _ _ _ _ hv i),
    fun i => real_of_abs_lt_top (s i) (Host.reduce_andi_all _ _ _ _ _ hs i)⟩

end Cert.LowRank.Finite

end
-- ==== Proof.DenseReference.lean ====
/-
  The reference computes the DENSE form of the layer.

  Its last operation contracts the activations' feature axis against the second axis of the 4096 × 4096 weight;
  the weight is the contraction over the rank of the scaled factor `V · σ` with the transposed factor `U`; the
  scale `σ` reaches the factor through two broadcasts (a new leading unit axis, then along the 4096 rows). Read
  index by index, operation by operation, that is
      ∑ j, x b t j · (∑ k, (V o k · (s k · mask k)) · U j k).
-/
import proofs.«150062_j23587960389934_1_alg».proof.Proof.Gen.ReferenceIdeal.Read
import proofs.«150062_j23587960389934_1_alg».proof.Proof.LowRankSpec

noncomputable section

namespace Cert.ReferenceIdeal.DenseValue

open Idealize.ShloMosaic Idealize.ShloMosaic.ValueIdx Cert.ReferenceIdeal Cert.ReferenceIdeal.Read Cert.LowRank

/-- The weight's entry (o, j): the contraction over the rank of the scaled factor's row `o` with `U`'s row `j`. -/
theorem weight_apply (u v : FArr) (s : SArr) (mk : MArr) (o j : Fin 4096) :
    val_main_v6 (F := Ideal) u v s mk (ix2 o j) = ∑ k : Fin 512, vsig v s mk o k * u (ix2 j k) := by
  rw [val_main_v6_apply]
  refine Finset.sum_congr rfl fun k _ => ?_
  have e1 : lidx_main_v6 (ix2 o j) k = ix2 o k :=
    funext fun a => Fin.ext (by match a with | ⟨0, _⟩ => rfl | ⟨1, _⟩ => rfl)
  have e2 : idx_main_v5 (ridx_main_v6 (ix2 o j) k) = ix2 j k :=
    funext fun a => Fin.ext (by match a with | ⟨0, _⟩ => rfl | ⟨1, _⟩ => rfl)
  have e3 : idx_main_v2 (idx_main_v3 (ix2 o k)) = ix1 k :=
    funext fun a => Fin.ext (by match a with | ⟨0, _⟩ => rfl)
  rw [e1, val_main_v4_apply, val_main_v3_apply, val_main_v2_apply, val_main_v1_apply, val_main_v0_apply,
    val_main_v5_apply, e2, e3]
  rfl

/-- The reference's result is the dense form of the layer. -/
theorem reference_eq_dense (x : XArr) (u v : FArr) (s : SArr) (mk : MArr) :
    val_main_v7 (F := Ideal) x u v s mk = dense x u v s mk := by
  funext i
  obtain ⟨b, t, o, rfl⟩ : ∃ (b : Fin 8) (t : Fin 2048) (o : Fin 4096), i = ix3 b t o := ⟨i 0, i 1, i 2, eq_ix3 i⟩
  rw [val_main_v7_apply, dense_ix3]
  unfold denseEntry
  refine Finset.sum_congr rfl fun j _ => ?_
  have e0 : lidx_main_v7 (ix3 b t o) j = ix3 b t j :=
    funext fun a => Fin.ext (by match a with | ⟨0, _⟩ => rfl | ⟨1, _⟩ => rfl | ⟨2, _⟩ => rfl)
  have e1 : ridx_main_v7 (ix3 b t o) j = ix2 o j :=
    funext fun a => Fin.ext (by match a with | ⟨0, _⟩ => rfl | ⟨1, _⟩ => rfl)
  rw [e0, e1, weight_apply]

end Cert.ReferenceIdeal.DenseValue

end
-- ==== Proof.BodyPayload.lean ====
/-
  What the kernel body computes on one block of 256 rows, index by index.

  The body casts the block to bf16 (the identity on extended reals), multiplies it by the resident factor `U`
  (a 4096-term contraction into a zero accumulator), casts the 256 × 512 product to bf16 (the identity again) and
  multiplies it by the resident transposed scaled factor (a 512-term contraction into a zero accumulator). So
  the entry (p, o) of what it stores is
      ∑ k, (∑ j, block p j · U j k) · Vt k o.
-/
import proofs.«150062_j23587960389934_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Idealize.ShloMosaic Idealize.ShloMosaic.ValueIdx Cert.KernelIdeal Cert.KernelIdeal.Gen

/-! ## The first product: [256, 4096] × [4096, 512] -/

theorem lhs_first_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs_first_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem rhs_first_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem rhs_first_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- The first product into the zero accumulator, at (p, k): the contraction over the 4096 features. -/
theorem first_apply (l : FVec Ideal S256x4096 .bf16) (r : FVec Ideal S4096x512 .bf16) (p : Fin 256) (k : Fin 512) :
    matmul dot_S256x4096_S4096x512_S256x512_1_0_0_1_n_n none l r (constant S256x512 .f32 0x00000000#32) (ix2 p k)
      = ∑ j : Fin 4096, l (ix2 p j) * r (ix2 j k) := by
  simp only [matmul]
  rw [Ideal.matmul_constant_zero_apply, ← Equiv.sum_comp (ValueIdx.contrEquiv1 dot_S256x4096_S4096x512_S256x512_1_0_0_1_n_n 4096 rfl rfl).symm]
  refine Finset.sum_congr rfl fun j _ => ?_
  have hj := ValueIdx.contrEquiv1_symm_val dot_S256x4096_S4096x512_S256x512_1_0_0_1_n_n 4096 rfl rfl j
  have el : dot_S256x4096_S4096x512_S256x512_1_0_0_1_n_n.lhsIdx (ix2 p k) ((ValueIdx.contrEquiv1 dot_S256x4096_S4096x512_S256x512_1_0_0_1_n_n 4096 rfl rfl).symm j) = ix2 p j := funext fun a => Fin.ext (by
    match a with
    | ⟨0, _⟩ => exact lhs_first_0 _ _
    | ⟨1, _⟩ => exact (lhs_first_1 _ _).trans hj)
  have er : dot_S256x4096_S4096x512_S256x512_1_0_0_1_n_n.rhsIdx (ix2 p k) ((ValueIdx.contrEquiv1 dot_S256x4096_S4096x512_S256x512_1_0_0_1_n_n 4096 rfl rfl).symm j) = ix2 j k := funext fun a => Fin.ext (by
    match a with
    | ⟨0, _⟩ => exact (rhs_first_0 _ _).trans hj
    | ⟨1, _⟩ => exact rhs_first_1 _ _)
  rw [el, er]

/-! ## The second product: [256, 512] × [512, 4096] -/

theorem lhs_second_0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem lhs_second_1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem rhs_second_0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem rhs_second_1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The second product into the zero accumulator, at (p, o): the contraction over the rank. -/
theorem second_apply (l : FVec Ideal S256x512 .bf16) (r : FVec Ideal S512x4096 .bf16) (p : Fin 256) (o : Fin 4096) :
    matmul dot_S256x512_S512x4096_S256x4096_1_0_0_1_n_n none l r (constant S256x4096 .f32 0x00000000#32) (ix2 p o)
      = ∑ k : Fin 512, l (ix2 p k) * r (ix2 k o) := by
  simp only [matmul]
  rw [Ideal.matmul_constant_zero_apply, ← Equiv.sum_comp (ValueIdx.contrEquiv1 dot_S256x512_S512x4096_S256x4096_1_0_0_1_n_n 512 rfl rfl).symm]
  refine Finset.sum_congr rfl fun k _ => ?_
  have hk := ValueIdx.contrEquiv1_symm_val dot_S256x512_S512x4096_S256x4096_1_0_0_1_n_n 512 rfl rfl k
  have el : dot_S256x512_S512x4096_S256x4096_1_0_0_1_n_n.lhsIdx (ix2 p o) ((ValueIdx.contrEquiv1 dot_S256x512_S512x4096_S256x4096_1_0_0_1_n_n 512 rfl rfl).symm k) = ix2 p k := funext fun a => Fin.ext (by
    match a with
    | ⟨0, _⟩ => exact lhs_second_0 _ _
    | ⟨1, _⟩ => exact (lhs_second_1 _ _).trans hk)
  have er : dot_S256x512_S512x4096_S256x4096_1_0_0_1_n_n.rhsIdx (ix2 p o) ((ValueIdx.contrEquiv1 dot_S256x512_S512x4096_S256x4096_1_0_0_1_n_n 512 rfl rfl).symm k) = ix2 k o := funext fun a => Fin.ext (by
    match a with
    | ⟨0, _⟩ => exact (rhs_second_0 _ _).trans hk
    | ⟨1, _⟩ => exact rhs_second_1 _ _)
  rw [el, er]

/-! ## The stored value -/

/-- What the body stores, at (p, o), from the three blocks it loads. -/
theorem stored_apply (x0 : FVec Ideal S256x4096 .f32) (x1 : FVec Ideal S4096x512 .bf16) (x2 : FVec Ideal S512x4096 .bf16)
    (p : Fin 256) (o : Fin 4096) :
    k0_pay1 (F := Ideal) x0 x1 x2 (ix2 p o) = ∑ k : Fin 512, (∑ j : Fin 4096, x0 (ix2 p j) * x1 (ix2 j k)) * x2 (ix2 k o) := by
  unfold k0_pay1
  simp only [shapeCast_self]
  rw [second_apply]
  refine Finset.sum_congr rfl fun k _ => ?_
  rw [truncf_apply, first_apply]
  rfl

end Cert.KernelIdeal.BodyValue

end
-- ==== Proof.FactoredKernel.lean ====
/-
  The kernel's program computes the FACTORED form of the layer.

  Before the region the host lays the activations out as 16384 rows (row b·2048 + t is (b, t)), casts `U` to
  bf16 (the identity on extended reals) and builds the transposed scaled factor `Vt k o = V o k · (s k · mask k)`.
  Grid point n works on rows 256·n … 256·n + 255 with both factors resident, and stores
  `∑ k, (∑ j, row j · U j k) · Vt k o` for each of them; the 64 blocks tile the 16384 rows. After the region the
  host folds the rows back to (b, t). So the result at (b, t, o) is
      ∑ k, (∑ j, x b t j · U j k) · (V o k · (s k · mask k)).
-/
import proofs.«150062_j23587960389934_1_alg».proof.Proof.Gen.KernelIdeal.Frame
import proofs.«150062_j23587960389934_1_alg».proof.Proof.BodyPayload
import proofs.«150062_j23587960389934_1_alg».proof.Proof.LowRankSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.FactoredValue

open Idealize.ShloMosaic Idealize.ShloMosaic.TcCoe Idealize.ShloMosaic.ValueIdx Idealize.SL.Sem Idealize.ShloMosaic.StableHlo
open Cert.KernelIdeal Cert.KernelIdeal.Gen Cert.LowRank

/-! ## The rows' function -/

/-- Entry (r, o) of the region's result from the three arrays it reads: the rows, `U` and the transposed scaled factor. -/
def rowsOutAt (X : FVec Ideal S16384x4096 .f32) (Ub : FVec Ideal S4096x512 .bf16) (Vt : FVec Ideal S512x4096 .bf16)
    (r : Fin 16384) (o : Fin 4096) : EReal :=
  ∑ k : Fin 512, (∑ j : Fin 4096, X (ix2 r j) * Ub (ix2 j k)) * Vt (ix2 k o)

/-- The region's result as a whole array. -/
def rowsOut (X : FVec Ideal S16384x4096 .f32) (Ub : FVec Ideal S4096x512 .bf16) (Vt : FVec Ideal S512x4096 .bf16) :
    FVec Ideal S16384x4096 .f32 := fun i => rowsOutAt X Ub Vt (i 0) (i 1)

theorem rowsOut_ix2 (X : FVec Ideal S16384x4096 .f32) (Ub : FVec Ideal S4096x512 .bf16) (Vt : FVec Ideal S512x4096 .bf16)
    (r : Fin 16384) (o : Fin 4096) : rowsOut X Ub Vt (ix2 r o) = rowsOutAt X Ub Vt r o := rfl

/-- What the body stores at (p, o), when row p of its first block is row r of the rows and its two other blocks are
    the two factors whole, is entry (r, o) of the rows' function. -/
theorem stored_of_blocks (x0 : FVec Ideal S256x4096 .f32) (x1 : FVec Ideal S4096x512 .bf16) (x2 : FVec Ideal S512x4096 .bf16)
    (X : FVec Ideal S16384x4096 .f32) (Ub : FVec Ideal S4096x512 .bf16) (Vt : FVec Ideal S512x4096 .bf16)
    (p : Fin 256) (o : Fin 4096) (r : Fin 16384)
    (h0 : ∀ j : Fin 4096, x0 (ix2 p j) = X (ix2 r j)) (h1 : ∀ (j : Fin 4096) (k : Fin 512), x1 (ix2 j k) = Ub (ix2 j k))
    (h2 : ∀ k : Fin 512, x2 (ix2 k o) = Vt (ix2 k o)) :
    k0_pay1 (F := Ideal) x0 x1 x2 (ix2 p o) = rowsOutAt X Ub Vt r o := by
  rw [BodyValue.stored_apply]
  unfold rowsOutAt
  refine Finset.sum_congr rfl fun k _ => ?_
  rw [h2 k]
  refine congrArg (· * Vt (ix2 k o)) (Finset.sum_congr rfl fun j _ => ?_)
  rw [h0 j, h1 j k]

variable (m : (ℓ : Loc nD τ sig) → Buf (Elt Ideal) ℓ) (ρ : Dev nD → PrngReg)

/-! ## The arrays as the region finds them -/

/-- The activations as rows: the host's reshape of `x`. -/
theorem rows_eq (c : Dev nD) : (V m c main_v8 : FVec Ideal S16384x4096 .f32)
    = shapeCast S16384x4096 (m ((c : Thread nD τ).loc main_arg0) : FVec Ideal S8x2048x4096 .f32) shapeCasts_S8x2048x4096_S16384x4096 := by
  show StableHlo.after hostOps0 (fun b => m (c, b)) (Proc.devRef .tc main_v8) = _
  after_results
  all_goals rfl

/-- Row b·2048 + t of the rows is (b, t) of `x`. -/
theorem rows_apply (c : Dev nD) (b : Fin 8) (t : Fin 2048) (j : Fin 4096) (r : Fin 16384) (hr : r.val = b.val * 2048 + t.val) :
    V m c main_v8 (ix2 r j) = m ((c : Thread nD τ).loc main_arg0) (ix3 b t j) := by
  rw [rows_eq]
  refine shapeCast_apply _ _ _ _ ?_
  show (S8x2048x4096.rowMajor (ix3 b t j)).val = (S16384x4096.rowMajor (ix2 r j)).val
  rw [Shape.rowMajor_val_three, Shape.rowMajor_val_two]
  show (b.val * 2048 + t.val) * 4096 + j.val = r.val * 4096 + j.val
  rw [hr]

/-- `U` reaches the region unchanged in value. -/
theorem ufac_eq (c : Dev nD) : (V m c main_v6 : FVec Ideal S4096x512 .bf16)
    = (truncf .bf16 (m ((c : Thread nD τ).loc main_arg1) : FVec Ideal S4096x512 .f32) bitsLt_bf16_f32 : FVec Ideal S4096x512 .bf16) := by
  show StableHlo.after hostOps0 (fun b => m (c, b)) (Proc.devRef .tc main_v6) = _
  after_results
  all_goals rfl

theorem ufac_apply (c : Dev nD) (j : Fin 4096) (k : Fin 512) :
    V m c main_v6 (ix2 j k) = m ((c : Thread nD τ).loc main_arg1) (ix2 j k) := by
  rw [ufac_eq]; rfl

/-- The transposed scaled factor, as the host builds it. -/
theorem vfac_eq (c : Dev nD) : (V m c main_v7 : FVec Ideal S512x4096 .bf16)
    = (truncf .bf16
      (transpose S512x4096 [1, 0]
        (mulf (m ((c : Thread nD τ).loc main_arg2) : FVec Ideal S4096x512 .f32)
          (broadcastInDim S4096x512 ![0, 1] bcast_S1x512_S4096x512_0_1
            (broadcastInDim S1x512 ![1] bcast_S512_S1x512_1
              (mulf (m ((c : Thread nD τ).loc main_arg3) : FVec Ideal S512 .f32)
                (uitofp (F := Ideal) .f32 (m ((c : Thread nD τ).loc main_arg4) : IVec S512 1))))))
        transposes_S4096x512_S512x4096_1_0)
      bitsLt_bf16_f32 : FVec Ideal S512x4096 .bf16) := by
  show StableHlo.after hostOps0 (fun b => m (c, b)) (Proc.devRef .tc main_v7) = _
  after_results
  all_goals rfl

/-- Its entry (k, o) is `V o k · (s k · mask k)`. -/
theorem vfac_apply (c : Dev nD) (k : Fin 512) (o : Fin 4096) :
    V m c main_v7 (ix2 k o) = vsig (m ((c : Thread nD τ).loc main_arg2)) (m ((c : Thread nD τ).loc main_arg3))
      (m ((c : Thread nD τ).loc main_arg4)) o k := by
  rw [vfac_eq, truncf_apply, transpose_ix2_apply, mulf_apply]
  unfold vsig sigma
  congr 1
  rw [broadcastInDim_apply _ bcast_S1x512_S4096x512_0_1 _ (ix2 o k) (ix2 (0 : Fin 1) k) (fun a => match a with
      | ⟨0, _⟩ => by show 0 = if (1 : Nat) = 1 then 0 else o.val; rw [if_pos rfl]
      | ⟨1, _⟩ => by show k.val = if (512 : Nat) = 1 then 0 else k.val; rw [if_neg (by decide)]),
    broadcastInDim_apply _ bcast_S512_S1x512_1 _ (ix2 (0 : Fin 1) k) (ix1 k) (fun a => match a with
      | ⟨0, _⟩ => by show k.val = if (512 : Nat) = 1 then 0 else k.val; rw [if_neg (by decide)])]
  rfl

/-! ## The blocks -/

theorem zero_offsets : (![0, 0] : Fin 2 → Nat) = fun _ => 0 := funext fun a => by fin_cases a <;> rfl

/-- The printed index maps over the 64 grid points: the rows' window and the result's window are at block n on the
    row axis, the two factors' windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row p of the rows' block at point n is row 256·n + p of the rows. -/
theorem rowsBlock_apply (c : Dev nD) (t : Fin cfg0.N) (p : Fin 256) (j : Fin 4096) (r : Fin 16384)
    (hr : r.val = t.val * 256 + p.val) : iblk m c 0 t (ix2 p j) = V m c main_v8 (ix2 r j) := by
  obtain ⟨e0, e1, -⟩ := idx_facts t
  unfold iblk
  show V m c main_v8 (((cfg0.win 0).blk t).view.emb (ix2 p j)) = V m c main_v8 (ix2 r j)
  have h : ((cfg0.win 0).blk t).view.emb (ix2 p j) = ix2 r j := by
    funext a; apply Fin.ext
    match a with
    | ⟨0, _⟩ => show win0_0.index t (0 : Fin 2) * 256 + 1 * p.val = r.val; omega
    | ⟨1, _⟩ => show win0_0.index t (1 : Fin 2) * 4096 + 1 * j.val = j.val; omega
  rw [h]

/-- The first factor's block is the whole factor at every point. -/
theorem ufacBlock_apply (c : Dev nD) (t : Fin cfg0.N) (j : Fin 4096) (k : Fin 512) :
    iblk m c 1 t (ix2 j k) = V m c main_v6 (ix2 j k) := by
  obtain ⟨-, -, e2, e3, -⟩ := idx_facts t
  unfold iblk
  show V m c main_v6 (((cfg0.win 1).blk t).view.emb (ix2 j k)) = V m c main_v6 (ix2 j k)
  have h : ((cfg0.win 1).blk t).view.emb (ix2 j k) = ix2 j k := by
    funext a; apply Fin.ext
    match a with
    | ⟨0, _⟩ => show win0_1.index t (0 : Fin 2) * 4096 + 1 * j.val = j.val; omega
    | ⟨1, _⟩ => show win0_1.index t (1 : Fin 2) * 512 + 1 * k.val = k.val; omega
  rw [h]

/-- So is the second factor's. -/
theorem vfacBlock_apply (c : Dev nD) (t : Fin cfg0.N) (k : Fin 512) (o : Fin 4096) :
    iblk m c 2 t (ix2 k o) = V m c main_v7 (ix2 k o) := by
  obtain ⟨-, -, -, -, e4, e5, -⟩ := idx_facts t
  unfold iblk
  show V m c main_v7 (((cfg0.win 2).blk t).view.emb (ix2 k o)) = V m c main_v7 (ix2 k o)
  have h : ((cfg0.win 2).blk t).view.emb (ix2 k o) = ix2 k o := by
    funext a; apply Fin.ext
    match a with
    | ⟨0, _⟩ => show win0_2.index t (0 : Fin 2) * 512 + 1 * k.val = k.val; omega
    | ⟨1, _⟩ => show win0_2.index t (1 : Fin 2) * 4096 + 1 * o.val = o.val; omega
  rw [h]

/-- Entry (p, o) of the result's block at point n sits at row 256·n + p of the result. -/
theorem outBlock_emb (t : Fin cfg0.N) (p : Fin 256) (o : Fin 4096) (r : Fin 16384) (hr : r.val = t.val * 256 + p.val) :
    ((cfg0.win 3).blk t).view.emb (ix2 p o) = ix2 r o := by
  obtain ⟨-, -, -, -, -, -, e6, e7⟩ := idx_facts t
  funext a; apply Fin.ext
  match a with
  | ⟨0, _⟩ => show win0_3.index t (0 : Fin 2) * 256 + 1 * p.val = r.val; omega
  | ⟨1, _⟩ => show win0_3.index t (1 : Fin 2) * 4096 + 1 * o.val = o.val; omega

/-- What the body stores at point n is block n of the rows' function of the arrays as the region finds them. -/
theorem block_eq (c : Dev nD) (t : Fin cfg0.N) (y : S256x4096.Idx) :
    k0_pay1 (F := Ideal) (iblk m c 0 t) (iblk m c 1 t) (iblk m c 2 t) y
      = rowsOut (V m c main_v8) (V m c main_v6) (V m c main_v7) (((cfg0.win 3).blk t).view.emb y) := by
  obtain ⟨p, o, rfl⟩ : ∃ (p : Fin 256) (o : Fin 4096), y = ix2 p o := ⟨y 0, y 1, eq_ix2 y⟩
  have ht := point_lt t
  have hp : p.val < 256 := p.isLt
  have hr : t.val * 256 + p.val < 16384 := by omega
  exact (stored_of_blocks (iblk m c 0 t) (iblk m c 1 t) (iblk m c 2 t) (V m c main_v8) (V m c main_v6) (V m c main_v7) p o
      ⟨t.val * 256 + p.val, hr⟩ (fun j => rowsBlock_apply m c t p j ⟨t.val * 256 + p.val, hr⟩ rfl)
      (fun j k => ufacBlock_apply m c t j k) (fun k => vfacBlock_apply m c t k o)).trans
    ((rowsOut_ix2 (V m c main_v8) (V m c main_v6) (V m c main_v7) ⟨t.val * 256 + p.val, hr⟩ o).symm.trans
      (congrArg (rowsOut (V m c main_v8) (V m c main_v6) (V m c main_v7)) (outBlock_emb t p o ⟨t.val * 256 + p.val, hr⟩ rfl).symm))

theorem flushed_eq (c : Dev nD) (t : Fin cfg0.N) :
    (dats m 0 c).flushed 3 t
      = ((cfg0.win 3).blk t).view.read (Elt Ideal) (rowsOut (V m c main_v8) (V m c main_v6) (V m c main_v7)) := by
  show (cfg0.win 3).cut (grid0.coords t) ((dats m 0 c).after 3 t) = _
  rw [after0_3]
  unfold out0_3
  rw [View.canon_unit_zero zero_offsets]
  simp only [View.ld_unit_zero (S := S256x4096) zero_offsets, View.ld_unit_zero (S := S4096x512) zero_offsets,
    View.ld_unit_zero (S := S512x4096) zero_offsets]
  funext y
  exact block_eq m c t y

/-! ## From the blocks to the array -/

/-- An index of the result is in point n's block iff each coordinate is in the block's range on its axis. -/
theorem mem_outBlock (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v9).slice (win0_3.rect t)).set ↔ _
  rw [View.set_slice_whole, Rect.mem_set_unit]
  exact Iff.rfl

/-- Row r is in the block of point r / 256: the 64 blocks tile the rows. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hq : (i 0).val / 256 < cfg0.N := by rw [show cfg0.N = 64 from N_0]; omega
  obtain ⟨-, -, -, -, -, -, e6, e7⟩ := idx_facts ⟨(i 0).val / 256, hq⟩
  have e6' : win0_3.index ⟨(i 0).val / 256, hq⟩ (0 : Fin 2) = (i 0).val / 256 := e6
  refine ⟨⟨(i 0).val / 256, hq⟩, flush0_3 _, ?_⟩
  rw [mem_outBlock]
  intro a
  match a with
  | ⟨0, _⟩ =>
    show win0_3.index ⟨(i 0).val / 256, hq⟩ (0 : Fin 2) * 256 ≤ (i 0).val ∧ (i 0).val < win0_3.index ⟨(i 0).val / 256, hq⟩ (0 : Fin 2) * 256 + 256
    omega
  | ⟨1, _⟩ =>
    show win0_3.index ⟨(i 0).val / 256, hq⟩ (1 : Fin 2) * 4096 ≤ (i 1).val ∧ (i 1).val < win0_3.index ⟨(i 0).val / 256, hq⟩ (1 : Fin 2) * 4096 + 4096
    omega

/-- The result's array after the run is the rows' function of the arrays as the region finds them. -/
theorem final (c : Dev nD) :
    (dats m 0 c).arrAt 3 cfg0.N = rowsOut (V m c main_v8) (V m c main_v6) (V m c main_v7) :=
  (dats m 0 c).arrAt_eq_of_cover 3 _ (fun t _ => flushed_eq m c t) covered

/-! ## The host's last line, and the run -/

theorem result_eq (c : Dev nD) : (Pipeline.afterTail₀ cfgs (dats m) 0 (V0 m) [hostOps1] c main_v10 : FVec Ideal S8x2048x4096 .f32)
    = factored (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v10) = _
  after_results
  rw [Pipeline.withArrays_arr spec0 launch0.win.arr_inj c _ _ 3, final m c]
  funext i
  obtain ⟨b, t, o, rfl⟩ : ∃ (b : Fin 8) (t : Fin 2048) (o : Fin 4096), i = ix3 b t o := ⟨i 0, i 1, i 2, eq_ix3 i⟩
  have hb : b.val < 8 := b.isLt
  have ht : t.val < 2048 := t.isLt
  have hr : b.val * 2048 + t.val < 16384 := by omega
  show shapeCast S8x2048x4096 (rowsOut (V m c main_v8) (V m c main_v6) (V m c main_v7)) shapeCasts_S16384x4096_S8x2048x4096 (ix3 b t o) = _
  rw [shapeCast_apply _ shapeCasts_S16384x4096_S8x2048x4096 (ix3 b t o) (ix2 ⟨b.val * 2048 + t.val, hr⟩ o) (by
      show (S16384x4096.rowMajor (ix2 ⟨b.val * 2048 + t.val, hr⟩ o)).val = (S8x2048x4096.rowMajor (ix3 b t o)).val
      rw [Shape.rowMajor_val_two, Shape.rowMajor_val_three]
      rfl),
    rowsOut_ix2, factored_ix3]
  unfold rowsOutAt factoredEntry
  refine Finset.sum_congr rfl fun k _ => ?_
  rw [vfac_apply m c k o]
  refine congrArg (· * _) (Finset.sum_congr rfl fun j _ => ?_)
  rw [rows_apply m c b t j ⟨b.val * 2048 + t.val, hr⟩ rfl, ufac_apply m c j k]

/-- THE RUN, READ: every weakly fair execution of the kernel's program ends with the result at the factored form of
    the layer of the argument arrays, and the argument arrays unchanged. -/
theorem run : θ_run defs (onTc (τ := τ) (main (F := Ideal))) ⟨m, fun _ => 0, ρ⟩ fun r => ∀ c : Dev nD,
      r.2.mem ((c.tc : Thread nD τ).loc main_v10)
        = factored (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.FactoredValue

end
-- ==== Proof.lean ====
/-
  A low-rank linear layer: the kernel against its dense reference, over the extended reals.

  With the masked scale `σ k = s k · mask k` the reference builds the dense 4096 × 4096 weight
  `W o j = ∑ k, V o k · σ k · U j k` and applies it, `∑ j, x b t j · W o j`; the kernel never builds `W`: on each block of
  256 rows it contracts the activations with `U` over the 4096 features first and the 512-wide product with the
  scaled factor second, `∑ k, (∑ j, x b t j · U j k) · (V o k · σ k)`. Both are the sum over all pairs (j, k) of
  `x b t j · U j k · V o k · σ k`, taken in the two orders; the orders agree because every entry is a real number,
  which is what the precondition says (on the extended reals a product does not distribute over a sum at the
  infinities). The bf16 casts and the block tiling change nothing over the extended reals.

  The modules: LowRankSpec (the two forms and the law between them), FiniteInputs (the precondition read),
  DenseReference (the reference computes the dense form), BodyPayload (one block of the kernel body, index by
  index), FactoredKernel (the kernel's program computes the factored form). The idealization rewrote no operation,
  so there is nothing to preserve beyond the program's own text.
-/
import proofs.«150062_j23587960389934_1_alg».proof.Defs
import proofs.«150062_j23587960389934_1_alg».proof.Proof.Gen.Kernel
import proofs.«150062_j23587960389934_1_alg».proof.Proof.Gen.Kernel.Skeleton
import proofs.«150062_j23587960389934_1_alg».proof.Proof.Gen.Kernel.Launch
import proofs.«150062_j23587960389934_1_alg».proof.Proof.Gen.Kernel.Points
import proofs.«150062_j23587960389934_1_alg».proof.Proof.Gen.Kernel.Frame
import proofs.«150062_j23587960389934_1_alg».proof.Proof.Gen.KernelIdeal
import proofs.«150062_j23587960389934_1_alg».proof.Proof.Gen.KernelIdeal.Skeleton
import proofs.«150062_j23587960389934_1_alg».proof.Proof.Gen.KernelIdeal.Launch
import proofs.«150062_j23587960389934_1_alg».proof.Proof.Gen.KernelIdeal.Points
import proofs.«150062_j23587960389934_1_alg».proof.Proof.Gen.KernelIdeal.Frame
import proofs.«150062_j23587960389934_1_alg».proof.Proof.Gen.ReferenceIdeal
import proofs.«150062_j23587960389934_1_alg».proof.Proof.Gen.Pre_finite_inputs
import proofs.«150062_j23587960389934_1_alg».proof.Proof.Gen.ReferenceIdeal.Run
import proofs.«150062_j23587960389934_1_alg».proof.Proof.Gen.ReferenceIdeal.Read
import proofs.«150062_j23587960389934_1_alg».proof.Proof.LowRankSpec
import proofs.«150062_j23587960389934_1_alg».proof.Proof.FiniteInputs
import proofs.«150062_j23587960389934_1_alg».proof.Proof.DenseReference
import proofs.«150062_j23587960389934_1_alg».proof.Proof.FactoredKernel
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the factored form of the layer of the arguments: the kernel's by its run; the reference's
    ends at the dense form, which on real entries is the factored one. -/
theorem algebraic : Cert.algebraic_KernelIdeal_ReferenceIdeal := by
  intro m ρ m' ρ' hpre hagree
  refine ⟨_, Cert.KernelIdeal.FactoredValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hu, hv, hs⟩ := Cert.LowRank.Finite.real_of_pre _ _ _ _ _ (hpre c)
  rw [Cert.ReferenceIdeal.Read.val_main_v7_eq, Cert.ReferenceIdeal.DenseValue.reference_eq_dense,
    (hagree c).1, (hagree c).2.1, (hagree c).2.2.1, (hagree c).2.2.2.1, (hagree c).2.2.2.2]
  exact (Cert.LowRank.factored_eq_dense _ _ _ _ _ hx hu hv hs).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
